-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x784 : Shape := ⟨2, ![65536, 784]⟩
abbrev S4 : Shape := ⟨1, ![4]⟩
abbrev S8 : Shape := ⟨1, ![8]⟩
abbrev S_ : Shape := ⟨0, ![]⟩

class Facts : Prop where
  bcast_S_S65536x784 : S_.BroadcastsInDim S65536x784 (![] : Fin 0 → Fin S65536x784.rank)
  reducesTo_S65536x784_S_d0_1 : S65536x784.ReducesTo [0, 1] S_
  h_S_ : 0 < S_.numel
  bcast_S_S4 : S_.BroadcastsInDim S4 (![] : Fin 0 → Fin S4.rank)
  reducesTo_S4_S_d0 : S4.ReducesTo [0] S_
  bcast_S_S8 : S_.BroadcastsInDim S8 (![] : Fin 0 → Fin S8.rank)
  reducesTo_S8_S_d0 : S8.ReducesTo [0] S_

variable [Facts]

def fn {F : FTy → Type} [FloatOps F] (main_arg0 : FVec F S65536x784 .f32) (main_arg1 : FVec F S4 .f32) (main_arg2 : FVec F S8 .f32) : IVec S_ 1 :=
  let main_v0 : FVec F S65536x784 .f32 := Host.absf main_arg0
  let main_cst : FVec F S_ .f32 := constant S_ .f32 0x7F800000#32
  let main_v1 : FVec F S65536x784 .f32 := broadcastInDim S65536x784 ![] bcast_S_S65536x784 main_cst
  let main_v2 : IVec S65536x784 1 := cmpf .olt main_v0 main_v1
  let main_c : IVec S_ 1 := constantI S_ 1 1#1
  let main_v3 : IVec S_ 1 := (fun x v => Host.reduce IntOp.andi x v reducesTo_S65536x784_S_d0_1 h_S_) main_v2 main_c
  let main_v4 : FVec F S4 .f32 := Host.absf main_arg1
  let main_cst_0 : FVec F S_ .f32 := constant S_ .f32 0x7F800000#32
  let main_v5 : FVec F S4 .f32 := broadcastInDim S4 ![] bcast_S_S4 main_cst_0
  let main_v6 : IVec S4 1 := cmpf .olt main_v4 main_v5
  let main_c_1 : IVec S_ 1 := constantI S_ 1 1#1
  let main_v7 : IVec S_ 1 := (fun x v => Host.reduce IntOp.andi x v reducesTo_S4_S_d0 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  main_v13
-- ==== Kernel.lean ====
abbrev S65536x784 : Shape := ⟨2, ![65536, 784]⟩
abbrev S4 : Shape := ⟨1, ![4]⟩
abbrev S8 : Shape := ⟨1, ![8]⟩
abbrev S1 : Shape := ⟨1, ![1]⟩
abbrev S_ : Shape := ⟨0, ![]⟩
abbrev S3 : Shape := ⟨1, ![3]⟩
abbrev S1x4 : Shape := ⟨2, ![1, 4]⟩
abbrev S196x4 : Shape := ⟨2, ![196, 4]⟩
abbrev S784 : Shape := ⟨1, ![784]⟩
abbrev S1x784 : Shape := ⟨2, ![1, 784]⟩
abbrev S4096x784 : Shape := ⟨2, ![4096, 784]⟩

abbrev nBuf : Space → Nat
  | .hbm => 19
  | .vmem => 3
  | .smem => 0
  | _ => 0

abbrev bufTy : (tb : Table) → Fin (tcTables nBuf tb) → BufTy
  | .hbm, ⟨0, _⟩ => ⟨S65536x784, .f32⟩
  | .hbm, ⟨1, _⟩ => ⟨S4, .f32⟩
  | .hbm, ⟨2, _⟩ => ⟨S8, .f32⟩
  | .hbm, ⟨3, _⟩ => ⟨S1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S1, .f32⟩
  | .hbm, ⟨11, _⟩ => ⟨S3, .f32⟩
  | .hbm, ⟨12, _⟩ => ⟨S3, .f32⟩
  | .hbm, ⟨13, _⟩ => ⟨S4, .f32⟩
  | .hbm, ⟨14, _⟩ => ⟨S1x4, .f32⟩
  | .hbm, ⟨15, _⟩ => ⟨S196x4, .f32⟩
  | .hbm, ⟨16, _⟩ => ⟨S784, .f32⟩
  | .hbm, ⟨17, _⟩ => ⟨S1x784, .f32⟩
  | .hbm, ⟨18, _⟩ => ⟨S65536x784, .f32⟩
  | .local _ .vmem, ⟨0, _⟩ => ⟨S1x784, .f32⟩
  | .local _ .vmem, ⟨1, _⟩ => ⟨S4096x784, .f32⟩
  | .local _ .vmem, ⟨2, _⟩ => ⟨S4096x784, .f32⟩
  | _, _ => ⟨S65536x784, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x784 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x784 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  slices_S4_S1_0 : S4.Slices ![0] S1
  shapeCasts_S1_S_ : S1.ShapeCasts S_
  reducesTo_S8_S_d0 : S8.ReducesTo [0] S_
  h_S_ : 0 < S_.numel
  bcast_S_S1 : S_.BroadcastsInDim S1 (![] : Fin 0 → Fin S1.rank)
  slices_S4_S3_1 : S4.Slices ![1] S3
  concatenates_S1_S3_S4_d0 : Shape.Concatenates [S1, S3] S4 0
  shapeCasts_S4_S1x4 : S4.ShapeCasts S1x4
  bcast_S1x4_S196x4_0_1 : S1x4.BroadcastsInDim S196x4 (![0, 1] : Fin 2 → Fin S196x4.rank)
  shapeCasts_S196x4_S784 : S196x4.ShapeCasts S784
  shapeCasts_S784_S1x784 : S784.ShapeCasts S1x784
  inb_S1x784_S1x784_0_0 : ∀ a, (![0, 0] : Fin 2 → Nat) a + S1x784.size a ≤ S1x784.size a
  h_S1x784 : 0 < S1x784.numel
  shapeCasts_S1x784_S1x784 : S1x784.ShapeCasts S1x784
  broadcasts_S1x784_S4096x784 : S1x784.Broadcasts S4096x784
  inb_S4096x784_S4096x784_0_0 : ∀ a, (![0, 0] : Fin 2 → Nat) a + S4096x784.size a ≤ S4096x784.size a
  h_S4096x784 : 0 < S4096x784.numel
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x784.size a ≤ S1x784.size a
  hwx0_0 : ∀ i : grid0.Coords, EltTy.bits .f32 = 32 ∨ (Rect.block (s := S1x784) S1x784.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x784.size a ≤ S65536x784.size a
  hwx0_1 : ∀ i : grid0.Coords, EltTy.bits .f32 = 32 ∨ (Rect.block (s := S65536x784) S4096x784.size (cc0_transform_1 i) (hinb0_1 i)).WholeWords (EltTy.packing .f32)

variable [Facts₀]

abbrev win0_0 : Pipeline.Window sig grid0 :=
  Pipeline.Window.ofSpec (Memref.whole main_v13) S1x784.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v14) S4096x784.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S65536x784 : Shape := ⟨2, ![65536, 784]⟩
abbrev S4 : Shape := ⟨1, ![4]⟩
abbrev S8 : Shape := ⟨1, ![8]⟩
abbrev S1 : Shape := ⟨1, ![1]⟩
abbrev S_ : Shape := ⟨0, ![]⟩
abbrev S3 : Shape := ⟨1, ![3]⟩
abbrev S1x4 : Shape := ⟨2, ![1, 4]⟩
abbrev S196x4 : Shape := ⟨2, ![196, 4]⟩
abbrev S784 : Shape := ⟨1, ![784]⟩
abbrev S1x784 : Shape := ⟨2, ![1, 784]⟩

abbrev nBuf : Space → Nat
  | .hbm => 19
  | .vmem => 0
  | .smem => 0
  | _ => 0

abbrev bufTy : (tb : Table) → Fin (tcTables nBuf tb) → BufTy
  | .hbm, ⟨0, _⟩ => ⟨S65536x784, .f32⟩
  | .hbm, ⟨1, _⟩ => ⟨S4, .f32⟩
  | .hbm, ⟨2, _⟩ => ⟨S8, .f32⟩
  | .hbm, ⟨3, _⟩ => ⟨S1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S1, .f32⟩
  | .hbm, ⟨11, _⟩ => ⟨S3, .f32⟩
  | .hbm, ⟨12, _⟩ => ⟨S3, .f32⟩
  | .hbm, ⟨13, _⟩ => ⟨S4, .f32⟩
  | .hbm, ⟨14, _⟩ => ⟨S1x4, .f32⟩
  | .hbm, ⟨15, _⟩ => ⟨S196x4, .f32⟩
  | .hbm, ⟨16, _⟩ => ⟨S784, .f32⟩
  | .hbm, ⟨17, _⟩ => ⟨S1x784, .f32⟩
  | .hbm, ⟨18, _⟩ => ⟨S65536x784, .f32⟩
  | _, _ => ⟨S65536x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]

class Facts₀ : Prop where
  slices_S4_S1_0 : S4.Slices ![0] S1
  shapeCasts_S1_S_ : S1.ShapeCasts S_
  reducesTo_S8_S_d0 : S8.ReducesTo [0] S_
  h_S_ : 0 < S_.numel
  bcast_S_S1 : S_.BroadcastsInDim S1 (![] : Fin 0 → Fin S1.rank)
  slices_S4_S3_1 : S4.Slices ![1] S3
  concatenates_S1_S3_S4_d0 : Shape.Concatenates [S1, S3] S4 0
  shapeCasts_S4_S1x4 : S4.ShapeCasts S1x4
  bcast_S1x4_S196x4_0_1 : S1x4.BroadcastsInDim S196x4 (![0, 1] : Fin 2 → Fin S196x4.rank)
  shapeCasts_S196x4_S784 : S196x4.ShapeCasts S784
  bcast_S784_S1x784_1 : S784.BroadcastsInDim S1x784 (![1] : Fin 1 → Fin S1x784.rank)
  bcast_S1x784_S65536x784_0_1 : S1x784.BroadcastsInDim S65536x784 (![0, 1] : Fin 2 → Fin S65536x784.rank)

variable [Facts₀]

class Facts : Prop extends Facts₀ where

variable [Facts]
-- ==== Proof.TileRows.lean ====
/-
  The specification both programs meet: a matrix of 65536 rows and 784 columns every row of which is ONE given row
  of 784 entries. Entry (r, k) of the matrix is entry k of the row, whatever r is.
-/
import Idealize.ShloMosaic.Lib.ValueIdx

noncomputable section

namespace Cert.RowTile

open Idealize.ShloMosaic Idealize.ShloMosaic.ValueIdx

/-- The column coordinate of a matrix index, as an index into a row of 784 entries. -/
abbrev col (i : (⟨2, ![65536, 784]⟩ : Shape).Idx) : (⟨1, ![784]⟩ : Shape).Idx :=
  fun a => match a with | ⟨0, _⟩ => ⟨(i 1).val, (i 1).isLt⟩

/-- The matrix whose every row is `v`: entry (r, k) is `v k`. -/
def tile {α : Type} (v : (⟨1, ![784]⟩ : Shape).Idx → α) : (⟨2, ![65536, 784]⟩ : Shape).Idx → α :=
  fun i => v (col i)

theorem tile_apply {α : Type} (v : (⟨1, ![784]⟩ : Shape).Idx → α) (i : (⟨2, ![65536, 784]⟩ : Shape).Idx) :
    tile v i = v (col i) := rfl

end Cert.RowTile

end
-- ==== Proof.KernelRows.lean ====
/-
  The idealized kernel's value. The host operations before the call compute, from the two angle vectors, one row of
  784 numbers (`row`: four expectation values — cos(ry₀)·cos(Σ rl), cos(ry₁), cos(ry₂), cos(ry₃) — repeated 196
  times) and hand it to the call as a 1×784 array. At each of the 16 grid points the body loads that one row and
  stores it into every one of the 4096 rows of the point's output block; the 16 blocks are consecutive bands of
  4096 rows and together fill the 65536×784 result. So the result is the matrix whose every row is `row`.
-/
import proofs.«139613_j65481071407377_1_alg».proof.Proof.Gen.KernelIdeal.Value
import proofs.«139613_j65481071407377_1_alg».proof.Proof.TileRows
import Idealize.ShloMosaic.Lib.ValueIdx
import Idealize.ShloMosaic.Lib.Pipeline.Value
import Idealize.ShloMosaic.Lib.StableHlo.Run

set_option maxRecDepth 16384

noncomputable section

namespace Cert.KernelIdeal.RowValue

open Cert.KernelIdeal Cert.KernelIdeal.Gen Cert.KernelIdeal.Value Idealize.ShloMosaic Idealize.ShloMosaic.TcCoe Idealize.SL.Sem
open Idealize.ShloMosaic.Pipeline (Dat)
open Idealize.ShloMosaic.StableHlo
open Idealize.ShloMosaic.ValueIdx Cert.RowTile

variable {F : FTy → Type} [FloatOps F]

/-- The row the host operations before the call compute from the angle vectors `ry` (4 entries) and `rl` (8 entries):
    the 4-vector (cos ry₀ · cos (Σ rl), cos ry₁, cos ry₂, cos ry₃), laid out 196 times in a row of 784 entries. -/
def row (ry : (⟨S4, .f32⟩ : BufTy).Contents (Elt F)) (rl : (⟨S8, .f32⟩ : BufTy).Contents (Elt F)) : (⟨S784, .f32⟩ : BufTy).Contents (Elt F) :=
  shapeCast _ (broadcastInDim S196x4 ![0, 1] bcast_S1x4_S196x4_0_1 (shapeCast _ (concatenate S4 0 [⟨S1, (broadcastInDim S1 ![] bcast_S_S1 (mulf (Host.cos (shapeCast _ (extractStridedSlice S1 ![0] ry slices_S4_S1_0) shapeCasts_S1_S_)) (Host.cos (Host.reduceAdd rl (constant S_ .f32 0x00000000#32) reducesTo_S8_S_d0 h_S_))))⟩, ⟨S3, (Host.cos (extractStridedSlice S3 ![1] ry slices_S4_S3_1))⟩] concatenates_S1_S3_S4_d0) shapeCasts_S4_S1x4)) shapeCasts_S196x4_S784

variable (m : (ℓ : Loc nD τ sig) → Buf (Elt F) ℓ) (ρ : Dev nD → PrngReg)

/-- The call's operand, as the region finds it: the row, recast as a 1×784 array. -/
theorem operand_eq (c : Dev nD) :
    (V m c main_v13 : S1x784.Idx → Elt F .f32)
      = shapeCast S1x784 (row (m ((c : Thread nD τ).loc main_arg1)) (m ((c : Thread nD τ).loc main_arg2))) shapeCasts_S784_S1x784 := by
  dsimp only [Gen.V, Gen.hostOps0]
  after_results
  rfl

/-- The operand's entry at (0, k) is the row's entry k: the recast keeps the row-major position. -/
theorem operand_apply (c : Dev nD) (y : S1x784.Idx) (k : S784.Idx) (hk : (k 0).val = (y 0).val * 784 + (y 1).val) :
    V m c main_v13 y = row (m ((c : Thread nD τ).loc main_arg1)) (m ((c : Thread nD τ).loc main_arg2)) k :=
  (congrFun (operand_eq m c) y).trans
    (shapeCast_apply _ shapeCasts_S784_S1x784 y k (by
      rewrite [Shape.rowMajor_val_one, Shape.rowMajor_val_two]
      show (k 0).val = (y 0).val * 784 + (y 1).val
      exact hk))

theorem origin_zero : (![0, 0] : Fin 2 → Nat) = fun _ => 0 := funext fun a => by fin_cases a <;> rfl

/-- What the body leaves in the output block, from the one row `x0` it loads: entry (r, k) of the block is `x0`'s
    entry (0, k), for every one of the 4096 rows r. -/
theorem body_block (x0 : Vec F S1x784 .f32) (j : S4096x784.Idx) : out0_1 x0 j = x0 (ix1_0 j) := by
  unfold out0_1
  rw [canon1_eq]
  show View.ld x0 r0_0 (ix1_0 j) = _
  rw [View.ld_unit_zero (S := S1x784) origin_zero]

/-- The index maps over the 16 grid points: the operand's block is always block (0, 0) — the whole 1×784 operand —,
    and point `t`'s output block is block (t, 0): rows 4096·t … 4096·t + 4095, all 784 columns. -/
theorem idx_facts : ∀ t : Fin cfg0.N, win0_0.index t (0 : Fin 2) = 0 ∧ win0_0.index t (1 : Fin 2) = 0
    ∧ win0_1.index t (0 : Fin 2) = t.val ∧ win0_1.index t (1 : Fin 2) = 0 :=
  (by decide +kernel : ∀ t : Fin grid0.N, _)

/-- What point `t` writes back is block `t` of the matrix whose every row is `row`. -/
theorem flushed_eq (c : Dev nD) (t : Fin cfg0.N) :
    (dats m 0 c).flushed 1 t = ((cfg0.win 1).blk t).view.read (Elt F)
      (tile (row (m ((c : Thread nD τ).loc main_arg1)) (m ((c : Thread nD τ).loc main_arg2)))) := by
  rw [flushed1]
  obtain ⟨e0, e1, e2, e3⟩ := idx_facts t
  funext j
  show out0_1 (iblk m c 0 t) j
    = tile (row (m ((c : Thread nD τ).loc main_arg1)) (m ((c : Thread nD τ).loc main_arg2))) (((cfg0.win 1).blk t).view.emb j)
  rw [body_block, tile_apply]
  show V m c main_v13 (((cfg0.win 0).blk t).view.emb (ix1_0 j)) = _
  refine operand_apply m c _ _ ?_
  show win0_1.index t (1 : Fin 2) * 784 + 1 * (j 1).val
    = (win0_0.index t (0 : Fin 2) * 1 + 1 * 0) * 784 + (win0_0.index t (1 : Fin 2) * 784 + 1 * (j 1).val)
  omega

/-- An index of the result lies in point `t`'s block iff each coordinate lies in the block's range on its axis. -/
theorem mem_blk (t : Fin cfg0.N) (i : S65536x784.Idx) :
    i ∈ ((cfg0.win 1).blk t).view.set ↔ ∀ a : Fin 2, win0_1.index t a * S4096x784.size a ≤ (i a).val ∧ (i a).val < win0_1.index t a * S4096x784.size a + S4096x784.size a := by
  show i ∈ ((View.whole main_v14).slice (win0_1.rect t)).set ↔ _
  rw [View.set_slice_whole, Rect.mem_set_unit]
  exact Iff.rfl

/-- Every index of the result is in some point's block: row r is in the band of point r / 4096. -/
theorem cover (i : S65536x784.Idx) :
    ∃ t : Fin cfg0.N, (cfg0.win 1).flush t = true ∧ i ∈ ((cfg0.win 1).blk t).view.set := by
  have hi0 : (i 0).val < 65536 := (i 0).isLt
  have hi1 : (i 1).val < 784 := (i 1).isLt
  have hq : (i 0).val / 4096 < 16 := by omega
  refine ⟨⟨(i 0).val / 4096, hq⟩, flush0_1 _, ?_⟩
  obtain ⟨-, -, e2, e3⟩ := idx_facts ⟨(i 0).val / 4096, hq⟩
  rw [mem_blk]
  intro a
  match a with
  | ⟨0, _⟩ =>
    show win0_1.index ⟨(i 0).val / 4096, hq⟩ (0 : Fin 2) * 4096 ≤ (i 0).val ∧ (i 0).val < win0_1.index ⟨(i 0).val / 4096, hq⟩ (0 : Fin 2) * 4096 + 4096
    rw [e2]
    show (i 0).val / 4096 * 4096 ≤ (i 0).val ∧ (i 0).val < (i 0).val / 4096 * 4096 + 4096
    omega
  | ⟨1, _⟩ =>
    show win0_1.index ⟨(i 0).val / 4096, hq⟩ (1 : Fin 2) * 784 ≤ (i 1).val ∧ (i 1).val < win0_1.index ⟨(i 0).val / 4096, hq⟩ (1 : Fin 2) * 784 + 784
    rw [e3]
    omega

/-- After the run the result array is the matrix whose every row is `row`. -/
theorem final (c : Dev nD) :
    (dats m 0 c).arrAt 1 cfg0.N = tile (row (m ((c : Thread nD τ).loc main_arg1)) (m ((c : Thread nD τ).loc main_arg2))) :=
  (dats m 0 c).arrAt_eq_of_cover 1 _ (fun t _ => flushed_eq m c t) cover

/-- The kernel's run: it terminates with the result at that matrix and the arguments unchanged. -/
theorem run : θ_run defs (onTc (τ := τ) (main (F := F))) ⟨m, fun _ => 0, ρ⟩ fun r => ∀ c : Dev nD,
      r.2.mem ((c : Thread nD τ).loc main_v14) = tile (row (m ((c : Thread nD τ).loc main_arg1)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.RowValue

end
-- ==== Proof.RefRows.lean ====
/-
  The reference's value. Its host operations compute a row of 784 numbers from the two angle vectors and broadcast
  it twice: to a 1×784 array (entry (0, k) is the row's entry k), then to the 65536×784 result (entry (r, k) is
  entry (0, k) of that). So the result is the matrix whose every row is the reference's row.
-/
import proofs.«139613_j65481071407377_1_alg».proof.Proof.Gen.ReferenceIdeal.Read
import proofs.«139613_j65481071407377_1_alg».proof.Proof.TileRows

noncomputable section

namespace Cert.ReferenceIdeal.RefValue

open Cert.ReferenceIdeal Cert.ReferenceIdeal.Gen Cert.ReferenceIdeal.Read Idealize.ShloMosaic Cert.RowTile

variable {F : FTy → Type} [FloatOps F]

/-- Through the two broadcasts, entry (r, k) of the result comes from the row's entry k. -/
theorem col_eq (i : S65536x784.Idx) : idx_main_v13 (idx_main_v14 i) = col i :=
  funext fun a => match a with | ⟨0, _⟩ => rfl

/-- The reference's result is the matrix whose every row is the row its first thirteen operations compute. -/
theorem result_eq (x1 : (⟨S4, .f32⟩ : BufTy).Contents (Elt F)) (x2 : (⟨S8, .f32⟩ : BufTy).Contents (Elt F)) :
    val_main_v14 (F := F) x1 x2 = tile (val_main_v12 (F := F) x1 x2) := by
  funext i
  rw [val_main_v14_apply, val_main_v13_apply, tile_apply, col_eq]

end Cert.ReferenceIdeal.RefValue

end
-- ==== Proof.RowsAgree.lean ====
/-
  The two programs compute the SAME row: up to the row of 784 entries their host operations are the same thirteen
  operations, in the same order, on the same two arguments, with the same one literal (the zero the sum starts from).
  The two terms are therefore one term, and nothing about cosines, sums or products of extended reals is used.
-/
import proofs.«139613_j65481071407377_1_alg».proof.Proof.KernelRows
import proofs.«139613_j65481071407377_1_alg».proof.Proof.RefRows

noncomputable section

namespace Cert.RowsAgree

open Idealize.ShloMosaic

variable {F : FTy → Type} [FloatOps F]

/-- The reference's row is the kernel's row, as functions of the two angle vectors. -/
theorem row_eq (ry : (⟨Cert.ReferenceIdeal.S4, .f32⟩ : BufTy).Contents (Elt F)) (rl : (⟨Cert.ReferenceIdeal.S8, .f32⟩ : BufTy).Contents (Elt F)) :
    Cert.ReferenceIdeal.Read.val_main_v12 (F := F) ry rl = Cert.KernelIdeal.RowValue.row (F := F) ry rl := rfl

end Cert.RowsAgree

end
-- ==== Proof.lean ====
/-
  Both programs return a 65536×784 matrix every row of which is one row of 784 numbers computed from the two small
  angle vectors `ry` (4 entries) and `rl` (8 entries): the four expectation values cos(ry₀)·cos(Σ rl), cos(ry₁),
  cos(ry₂), cos(ry₃), repeated 196 times. The first argument, the 65536×784 input, is read by neither.

  The kernel program computes the row with host operations, recasts it as a 1×784 array, and a call over 16 grid
  points stores that row into each of the 4096 rows of the point's block of the result; the blocks are consecutive
  bands of rows and fill the result (Proof/KernelRows.lean). The reference computes the row with the same host
  operations and broadcasts it to the result (Proof/RefRows.lean). The rows are one term (Proof/RowsAgree.lean), so
  the results are equal entry by entry, with no appeal to the precondition: no law of the extended reals is used.

  The kernel programs' frames are the generated frame certificates; the reference's frame is its run with the result
  dropped; the idealization rewrote nothing, so `preserves` is `True`.
-/
import proofs.«139613_j65481071407377_1_alg».proof.Defs
import proofs.«139613_j65481071407377_1_alg».proof.Proof.Gen.Kernel
import proofs.«139613_j65481071407377_1_alg».proof.Proof.Gen.Kernel.Skeleton
import proofs.«139613_j65481071407377_1_alg».proof.Proof.Gen.Kernel.Launch
import proofs.«139613_j65481071407377_1_alg».proof.Proof.Gen.Kernel.Points
import proofs.«139613_j65481071407377_1_alg».proof.Proof.Gen.Kernel.Frame
import proofs.«139613_j65481071407377_1_alg».proof.Proof.Gen.KernelIdeal
import proofs.«139613_j65481071407377_1_alg».proof.Proof.Gen.KernelIdeal.Skeleton
import proofs.«139613_j65481071407377_1_alg».proof.Proof.Gen.KernelIdeal.Launch
import proofs.«139613_j65481071407377_1_alg».proof.Proof.Gen.KernelIdeal.Points
import proofs.«139613_j65481071407377_1_alg».proof.Proof.Gen.KernelIdeal.Frame
import proofs.«139613_j65481071407377_1_alg».proof.Proof.Gen.ReferenceIdeal
import proofs.«139613_j65481071407377_1_alg».proof.Proof.Gen.Pre_finite_inputs
import proofs.«139613_j65481071407377_1_alg».proof.Proof.Gen.KernelIdeal.Value
import proofs.«139613_j65481071407377_1_alg».proof.Proof.Gen.ReferenceIdeal.Run
import proofs.«139613_j65481071407377_1_alg».proof.Proof.Gen.ReferenceIdeal.Read
import proofs.«139613_j65481071407377_1_alg».proof.Proof.KernelRows
import proofs.«139613_j65481071407377_1_alg».proof.Proof.RefRows
import proofs.«139613_j65481071407377_1_alg».proof.Proof.RowsAgree
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference terminates with its arguments unchanged: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the matrix whose every row is the one row of
    784 expectation values: the kernel's by its blocks, the reference's by its broadcasts, the rows one term. -/
theorem algebraic : Cert.algebraic_KernelIdeal_ReferenceIdeal := by
  intro m ρ m' ρ' _ hagree
  refine ⟨_, Cert.KernelIdeal.RowValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.result_eq, Cert.RowsAgree.row_eq,
    (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
